-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x64 : Shape := ⟨2, ![2048, 64]⟩
abbrev S2048x8 : Shape := ⟨2, ![2048, 8]⟩
abbrev S64x512 : Shape := ⟨2, ![64, 512]⟩
abbrev S512 : Shape := ⟨1, ![512]⟩
abbrev S_ : Shape := ⟨0, ![]⟩

class Facts : Prop where
  bcast_S_S2048x64 : S_.BroadcastsInDim S2048x64 (![] : Fin 0 → Fin S2048x64.rank)
  reducesTo_S2048x64_S_d0_1 : S2048x64.ReducesTo [0, 1] S_
  h_S_ : 0 < S_.numel
  bcast_S_S64x512 : S_.BroadcastsInDim S64x512 (![] : Fin 0 → Fin S64x512.rank)
  reducesTo_S64x512_S_d0_1 : S64x512.ReducesTo [0, 1] S_
  bcast_S_S512 : S_.BroadcastsInDim S512 (![] : Fin 0 → Fin S512.rank)
  reducesTo_S512_S_d0 : S512.ReducesTo [0] S_
  bcast_S_S2048x8 : S_.BroadcastsInDim S2048x8 (![] : Fin 0 → Fin S2048x8.rank)
  reducesTo_S2048x8_S_d0_1 : S2048x8.ReducesTo [0, 1] S_

variable [Facts]

def fn_part1 {F : FTy → Type} [FloatOps F] (main_arg1 : IVec S2048x8 32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_c_6 : IVec S_ 32 := constantI S_ 32 0#32
  let main_v19 : IVec S2048x8 32 := broadcastInDim S2048x8 ![] bcast_S_S2048x8 main_c_6
  let main_v20 : IVec S2048x8 1 := cmpi .sge main_arg1 main_v19
  let main_c_7 : IVec S_ 1 := constantI S_ 1 1#1
  let main_v21 : IVec S_ 1 := (fun x v => Host.reduce IntOp.andi x v reducesTo_S2048x8_S_d0_1 h_S_) main_v20 main_c_7
  let main_v22 : IVec S_ 1 := andi main_v18 main_v21
  main_v22

def fn {F : FTy → Type} [FloatOps F] (main_arg0 : FVec F S2048x64 .f32) (main_arg1 : IVec S2048x8 32) (main_arg2 : FVec F S64x512 .f32) (main_arg3 : FVec F S64x512 .f32) (main_arg4 : FVec F S512 .f32) : IVec S_ 1 :=
  let main_v0 : FVec F S2048x64 .f32 := Host.absf main_arg0
  let main_cst : FVec F S_ .f32 := constant S_ .f32 0x7F800000#32
  let main_v1 : FVec F S2048x64 .f32 := broadcastInDim S2048x64 ![] bcast_S_S2048x64 main_cst
  let main_v2 : IVec S2048x64 1 := cmpf .olt main_v0 main_v1
  let main_c : IVec S_ 1 := constantI S_ 1 1#1
  let main_v3 : IVec S_ 1 := (fun x v => Host.reduce IntOp.andi x v reducesTo_S2048x64_S_d0_1 h_S_) main_v2 main_c
  let main_v4 : FVec F S64x512 .f32 := Host.absf main_arg2
  let main_cst_0 : FVec F S_ .f32 := constant S_ .f32 0x7F800000#32
  let main_v5 : FVec F S64x512 .f32 := broadcastInDim S64x512 ![] bcast_S_S64x512 main_cst_0
  let main_v6 : IVec S64x512 1 := cmpf .olt main_v4 main_v5
  let main_c_1 : IVec S_ 1 := constantI S_ 1 1#1
  let main_v7 : IVec S_ 1 := (fun x v => Host.reduce IntOp.andi x v reducesTo_S64x512_S_d0_1 h_S_) main_v6 main_c_1
  let main_v8 : IVec S_ 1 := andi main_v3 main_v7
  let main_v9 : FVec F S64x512 .f32 := Host.absf main_arg3
  let main_cst_2 : FVec F S_ .f32 := constant S_ .f32 0x7F800000#32
  let main_v10 : FVec F S64x512 .f32 := broadcastInDim S64x512 ![] bcast_S_S64x512 main_cst_2
  let main_v11 : IVec S64x512 1 := cmpf .olt main_v9 main_v10
  let main_c_3 : IVec S_ 1 := constantI S_ 1 1#1
  let main_v12 : IVec S_ 1 := (fun x v => Host.reduce IntOp.andi x v reducesTo_S64x512_S_d0_1 h_S_) main_v11 main_c_3
  let main_v13 : IVec S_ 1 := andi main_v8 main_v12
  let main_v14 : FVec F S512 .f32 := Host.absf main_arg4
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg1 main_v13 main_v16
-- ==== Kernel.lean ====
abbrev S2048x64 : Shape := ⟨2, ![2048, 64]⟩
abbrev S2048x8 : Shape := ⟨2, ![2048, 8]⟩
abbrev S64x512 : Shape := ⟨2, ![64, 512]⟩
abbrev S512 : Shape := ⟨1, ![512]⟩
abbrev S1x512 : Shape := ⟨2, ![1, 512]⟩
abbrev S2048x64x512 : Shape := ⟨3, ![2048, 64, 512]⟩
abbrev S128x64 : Shape := ⟨2, ![128, 64]⟩
abbrev S64x256 : Shape := ⟨2, ![64, 256]⟩
abbrev S128x8 : Shape := ⟨2, ![128, 8]⟩
abbrev S1x256 : Shape := ⟨2, ![1, 256]⟩
abbrev S128x64x256 : Shape := ⟨3, ![128, 64, 256]⟩
abbrev S128x64x1 : Shape := ⟨3, ![128, 64, 1]⟩
abbrev S1x64x256 : Shape := ⟨3, ![1, 64, 256]⟩
abbrev S128x1 : Shape := ⟨2, ![128, 1]⟩
abbrev S1x1x256 : Shape := ⟨3, ![1, 1, 256]⟩

abbrev nBuf : Space → Nat
  | .hbm => 7
  | .vmem => 12
  | .smem => 0
  | _ => 0

abbrev bufTy : (tb : Table) → Fin (tcTables nBuf tb) → BufTy
  | .hbm, ⟨0, _⟩ => ⟨S2048x64, .f32⟩
  | .hbm, ⟨1, _⟩ => ⟨S2048x8, .i32⟩
  | .hbm, ⟨2, _⟩ => ⟨S64x512, .f32⟩
  | .hbm, ⟨3, _⟩ => ⟨S64x512, .f32⟩
  | .hbm, ⟨4, _⟩ => ⟨S512, .f32⟩
  | .hbm, ⟨5, _⟩ => ⟨S1x512, .f32⟩
  | .hbm, ⟨6, _⟩ => ⟨S2048x64x512, .f32⟩
  | .local _ .vmem, ⟨0, _⟩ => ⟨S128x64, .f32⟩
  | .local _ .vmem, ⟨1, _⟩ => ⟨S128x64, .f32⟩
  | .local _ .vmem, ⟨2, _⟩ => ⟨S64x256, .f32⟩
  | .local _ .vmem, ⟨3, _⟩ => ⟨S64x256, .f32⟩
  | .local _ .vmem, ⟨4, _⟩ => ⟨S64x256, .f32⟩
  | .local _ .vmem, ⟨5, _⟩ => ⟨S64x256, .f32⟩
  | .local _ .vmem, ⟨6, _⟩ => ⟨S128x8, .i32⟩
  | .local _ .vmem, ⟨7, _⟩ => ⟨S128x8, .i32⟩
  | .local _ .vmem, ⟨8, _⟩ => ⟨S1x256, .f32⟩
  | .local _ .vmem, ⟨9, _⟩ => ⟨S1x256, .f32⟩
  | .local _ .vmem, ⟨10, _⟩ => ⟨S128x64x256, .f32⟩
  | .local _ .vmem, ⟨11, _⟩ => ⟨S128x64x256, .f32⟩
  | _, _ => ⟨S2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S128x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S64x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S64x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S128x8 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S128x64x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  shapeCasts_S512_S1x512 : S512.ShapeCasts S1x512
  inb_S128x64_S128x64_0_0 : ∀ a, (![0, 0] : Fin 2 → Nat) a + S128x64.size a ≤ S128x64.size a
  h_S128x64 : 0 < S128x64.numel
  inb_S64x256_S64x256_0_0 : ∀ a, (![0, 0] : Fin 2 → Nat) a + S64x256.size a ≤ S64x256.size a
  h_S64x256 : 0 < S64x256.numel
  inb_S128x8_S128x8_0_0 : ∀ a, (![0, 0] : Fin 2 → Nat) a + S128x8.size a ≤ S128x8.size a
  h_S128x8 : 0 < S128x8.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  shapeCasts_S128x64_S128x64x1 : S128x64.ShapeCasts S128x64x1
  shapeCasts_S64x256_S1x64x256 : S64x256.ShapeCasts S1x64x256
  broadcasts_S128x64x1_S128x64x256 : S128x64x1.Broadcasts S128x64x256
  broadcasts_S1x64x256_S128x64x256 : S1x64x256.Broadcasts S128x64x256
  iota_S128x64_d1_w32 : S128x64.Iotas .tc 32 [1]
  slices_S128x8_o0_0_S128x1 : S128x8.Slices ![0, 0] S128x1
  broadcasts_S128x1_S128x64 : S128x1.Broadcasts S128x64
  slices_S128x8_o0_1_S128x1 : S128x8.Slices ![0, 1] S128x1
  slices_S128x8_o0_2_S128x1 : S128x8.Slices ![0, 2] S128x1
  slices_S128x8_o0_3_S128x1 : S128x8.Slices ![0, 3] S128x1
  slices_S128x8_o0_4_S128x1 : S128x8.Slices ![0, 4] S128x1
  slices_S128x8_o0_5_S128x1 : S128x8.Slices ![0, 5] S128x1
  slices_S128x8_o0_6_S128x1 : S128x8.Slices ![0, 6] S128x1
  slices_S128x8_o0_7_S128x1 : S128x8.Slices ![0, 7] S128x1
  natLt_1_32 : 1 < 32
  shapeCasts_S1x256_S1x1x256 : S1x256.ShapeCasts S1x1x256
  broadcasts_S1x1x256_S128x64x256 : S1x1x256.Broadcasts S128x64x256
  inb_S128x64x256_S128x64x256_0_0_0 : ∀ a, (![0, 0, 0] : Fin 3 → Nat) a + S128x64x256.size a ≤ S128x64x256.size a
  h_S128x64x256 : 0 < S128x64x256.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x64.size a ≤ S2048x64.size a
  hwx0_0 : ∀ i : grid0.Coords, EltTy.bits .f32 = 32 ∨ (Rect.block (s := S2048x64) S128x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x256.size a ≤ S64x512.size a
  hwx0_1 : ∀ i : grid0.Coords, EltTy.bits .f32 = 32 ∨ (Rect.block (s := S64x512) S64x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x256.size a ≤ S64x512.size a
  hwx0_2 : ∀ i : grid0.Coords, EltTy.bits .f32 = 32 ∨ (Rect.block (s := S64x512) S64x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x8.size a ≤ S2048x8.size a
  hwx0_3 : ∀ i : grid0.Coords, EltTy.bits .i32 = 32 ∨ (Rect.block (s := S2048x8) S128x8.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x512.size a
  hwx0_4 : ∀ i : grid0.Coords, EltTy.bits .f32 = 32 ∨ (Rect.block (s := S1x512) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x64x256.size a ≤ S2048x64x512.size a
  hwx0_5 : ∀ i : grid0.Coords, EltTy.bits .f32 = 32 ∨ (Rect.block (s := S2048x64x512) S128x64x256.size (cc0_transform_5 i) (hinb0_5 i)).WholeWords (EltTy.packing .f32)

variable [Facts₀]

abbrev win0_0 : Pipeline.Window sig grid0 :=
  Pipeline.Window.ofSpec (Memref.whole main_arg0) S128x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S128x8.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1) S128x64x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S2048x64 : Shape := ⟨2, ![2048, 64]⟩
abbrev S2048x8 : Shape := ⟨2, ![2048, 8]⟩
abbrev S64x512 : Shape := ⟨2, ![64, 512]⟩
abbrev S512 : Shape := ⟨1, ![512]⟩
abbrev S2048x64x1 : Shape := ⟨3, ![2048, 64, 1]⟩
abbrev S1x64x512 : Shape := ⟨3, ![1, 64, 512]⟩
abbrev S2048x64x512 : Shape := ⟨3, ![2048, 64, 512]⟩
abbrev S2048 : Shape := ⟨1, ![2048]⟩
abbrev S2048x1 : Shape := ⟨2, ![2048, 1]⟩
abbrev S_ : Shape := ⟨0, ![]⟩
abbrev S2048x8x1 : Shape := ⟨3, ![2048, 8, 1]⟩
abbrev S2048x8x2 : Shape := ⟨3, ![2048, 8, 2]⟩
abbrev S2048x8x512 : Shape := ⟨3, ![2048, 8, 512]⟩

abbrev nBuf : Space → Nat
  | .hbm => 35
  | .vmem => 0
  | .smem => 0
  | _ => 0

abbrev bufTy : (tb : Table) → Fin (tcTables nBuf tb) → BufTy
  | .hbm, ⟨0, _⟩ => ⟨S2048x64, .f32⟩
  | .hbm, ⟨1, _⟩ => ⟨S2048x8, .i32⟩
  | .hbm, ⟨2, _⟩ => ⟨S64x512, .f32⟩
  | .hbm, ⟨3, _⟩ => ⟨S64x512, .f32⟩
  | .hbm, ⟨4, _⟩ => ⟨S512, .f32⟩
  | .hbm, ⟨5, _⟩ => ⟨S2048x64x1, .f32⟩
  | .hbm, ⟨6, _⟩ => ⟨S1x64x512, .f32⟩
  | .hbm, ⟨7, _⟩ => ⟨S2048x64x512, .f32⟩
  | .hbm, ⟨8, _⟩ => ⟨S2048x64x512, .f32⟩
  | .hbm, ⟨9, _⟩ => ⟨S2048x64x512, .f32⟩
  | .hbm, ⟨10, _⟩ => ⟨S1x64x512, .f32⟩
  | .hbm, ⟨11, _⟩ => ⟨S2048x64x512, .f32⟩
  | .hbm, ⟨12, _⟩ => ⟨S2048x64x512, .f32⟩
  | .hbm, ⟨13, _⟩ => ⟨S2048, .i32⟩
  | .hbm, ⟨14, _⟩ => ⟨S2048x1, .i32⟩
  | .hbm, ⟨15, _⟩ => ⟨S_, .i32⟩
  | .hbm, ⟨16, _⟩ => ⟨S2048x1, .i32⟩
  | .hbm, ⟨17, _⟩ => ⟨S2048x1, .i1⟩
  | .hbm, ⟨18, _⟩ => ⟨S_, .i32⟩
  | .hbm, ⟨19, _⟩ => ⟨S2048x1, .i32⟩
  | .hbm, ⟨20, _⟩ => ⟨S2048x1, .i32⟩
  | .hbm, ⟨21, _⟩ => ⟨S2048x1, .i32⟩
  | .hbm, ⟨22, _⟩ => ⟨S_, .i32⟩
  | .hbm, ⟨23, _⟩ => ⟨S2048x8, .i32⟩
  | .hbm, ⟨24, _⟩ => ⟨S2048x8, .i1⟩
  | .hbm, ⟨25, _⟩ => ⟨S_, .i32⟩
  | .hbm, ⟨26, _⟩ => ⟨S2048x8, .i32⟩
  | .hbm, ⟨27, _⟩ => ⟨S2048x8, .i32⟩
  | .hbm, ⟨28, _⟩ => ⟨S2048x8, .i32⟩
  | .hbm, ⟨29, _⟩ => ⟨S2048x8, .i32⟩
  | .hbm, ⟨30, _⟩ => ⟨S2048x8x1, .i32⟩
  | .hbm, ⟨31, _⟩ => ⟨S2048x8x1, .i32⟩
  | .hbm, ⟨32, _⟩ => ⟨S2048x8x2, .i32⟩
  | .hbm, ⟨33, _⟩ => ⟨S2048x8x512, .f32⟩
  | .hbm, ⟨34, _⟩ => ⟨S2048x64x512, .f32⟩
  | _, _ => ⟨S2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_v10 : Ref sig .tc := ⟨.hbm, 16, rfl⟩
abbrev main_v11 : Ref sig .tc := ⟨.hbm, 17, rfl⟩
abbrev main_c_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_c_1 : Ref sig .tc := ⟨.hbm, 22, rfl⟩
abbrev main_v15 : Ref sig .tc := ⟨.hbm, 23, rfl⟩
abbrev main_v16 : Ref sig .tc := ⟨.hbm, 24, rfl⟩
abbrev main_c_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩

abbrev nD : Nat := 1
abbrev τ : Topo := Topo.v7x

variable {F : FTy → Type} [FloatOps F]

class Facts₀ : Prop where
  bcast_S2048x64_S2048x64x1_0_1 : S2048x64.BroadcastsInDim S2048x64x1 (![0, 1] : Fin 2 → Fin S2048x64x1.rank)
  bcast_S64x512_S1x64x512_1_2 : S64x512.BroadcastsInDim S1x64x512 (![1, 2] : Fin 2 → Fin S1x64x512.rank)
  bcast_S2048x64x1_S2048x64x512_0_1_2 : S2048x64x1.BroadcastsInDim S2048x64x512 (![0, 1, 2] : Fin 3 → Fin S2048x64x512.rank)
  bcast_S1x64x512_S2048x64x512_0_1_2 : S1x64x512.BroadcastsInDim S2048x64x512 (![0, 1, 2] : Fin 3 → Fin S2048x64x512.rank)
  bcast_S2048_S2048x1_0 : S2048.BroadcastsInDim S2048x1 (![0] : Fin 1 → Fin S2048x1.rank)
  bcast_S_S2048x1 : S_.BroadcastsInDim S2048x1 (![] : Fin 0 → Fin S2048x1.rank)
  bcast_S_S2048x8 : S_.BroadcastsInDim S2048x8 (![] : Fin 0 → Fin S2048x8.rank)
  bcast_S2048x1_S2048x8_0_1 : S2048x1.BroadcastsInDim S2048x8 (![0, 1] : Fin 2 → Fin S2048x8.rank)
  bcast_S2048x8_S2048x8x1_0_1 : S2048x8.BroadcastsInDim S2048x8x1 (![0, 1] : Fin 2 → Fin S2048x8x1.rank)
  concatenates_S2048x8x1_S2048x8x1_S2048x8x2_d2 : Shape.Concatenates [S2048x8x1, S2048x8x1] S2048x8x2 2
  bcast_S512_S2048x8x512_2 : S512.BroadcastsInDim S2048x8x512 (![2] : Fin 1 → Fin S2048x8x512.rank)
  scatter_S2048x64x512_S2048x8x2_S2048x8x512_2_01_01_2_wf : ScatterDims.WF S2048x64x512 S2048x8x2 S2048x8x512 [2] [0, 1] [0, 1] 2

variable [Facts₀]

def scatter_S2048x64x512_S2048x8x2_S2048x8x512_2_01_01_2 : ScatterDims S2048x64x512 S2048x8x2 S2048x8x512 where
  updateWindowDims := [2]
  insertedWindowDims := [0, 1]
  scatterDimsToOperandDims := [0, 1]
  indexVectorDim := 2
  wf := scatter_S2048x64x512_S2048x8x2_S2048x8x512_2_01_01_2_wf

class Facts : Prop extends Facts₀ where

variable [Facts]
-- ==== Proof.EmbedSpec.lean ====
/-
  The feature embedding with masked positions, as ONE function of the argument arrays.

  For a batch row `r`, a feature `f` and a model coordinate `d` the result is the per-feature affine token
  `x[r,f] · W[f,d] + b[f,d]`, except where row `r` LISTS feature `f` among its eight mask positions: there it is
  the mask token `tok[d]`. "Lists" compares words: some position of the row equals `f` as a 32-bit word.

  The blend law: with `h` the 0/1 value of a bit, `tok · h + t · (1 − h)` on the extended reals is `tok` when the
  bit is set and `t` when it is clear, for EVERY `tok` and `t`, infinite ones included: the extended reals have
  `a · 0 = 0`, `a · 1 = a`, `a + 0 = a` and `1 − 1 = 0` with no side condition, so no finiteness is used.
-/
import Idealize.ShloMosaic.PureOps.Ideal
import Idealize.ShloMosaic.Lib.ValueIdx

noncomputable section

namespace Cert.Embed

open Idealize.ShloMosaic Idealize.ShloMosaic.ValueIdx

/-- Row `r` lists feature `f`: one of its eight mask positions is the word `f`. -/
def Listed (pos : IVec ⟨2, ![2048, 8]⟩ 32) (r : Fin 2048) (f : Fin 64) : Prop :=
  ∃ k : Fin 8, pos (ix2 r k) = BitVec.ofNat 32 f.val

open Classical in
/-- The embedding: the mask token at listed features, the affine token elsewhere. -/
def embed (x : FVec Ideal ⟨2, ![2048, 64]⟩ .f32) (pos : IVec ⟨2, ![2048, 8]⟩ 32) (W b : FVec Ideal ⟨2, ![64, 512]⟩ .f32)
    (tok : FVec Ideal ⟨1, ![512]⟩ .f32) : FVec Ideal ⟨3, ![2048, 64, 512]⟩ .f32 :=
  fun i => if Listed pos (i 0) (i 1) then tok (ix1 (i 2)) else x (ix2 (i 0) (i 1)) * W (ix2 (i 1) (i 2)) + b (ix2 (i 1) (i 2))

theorem embed_of_listed (x : FVec Ideal ⟨2, ![2048, 64]⟩ .f32) (pos : IVec ⟨2, ![2048, 8]⟩ 32) (W b : FVec Ideal ⟨2, ![64, 512]⟩ .f32)
    (tok : FVec Ideal ⟨1, ![512]⟩ .f32) (r : Fin 2048) (f : Fin 64) (d : Fin 512) (h : Listed pos r f) :
    embed x pos W b tok (ix3 r f d) = tok (ix1 d) := by
  unfold embed; exact if_pos h

theorem embed_of_not_listed (x : FVec Ideal ⟨2, ![2048, 64]⟩ .f32) (pos : IVec ⟨2, ![2048, 8]⟩ 32) (W b : FVec Ideal ⟨2, ![64, 512]⟩ .f32)
    (tok : FVec Ideal ⟨1, ![512]⟩ .f32) (r : Fin 2048) (f : Fin 64) (d : Fin 512) (h : ¬ Listed pos r f) :
    embed x pos W b tok (ix3 r f d) = x (ix2 r f) * W (ix2 f d) + b (ix2 f d) := by
  unfold embed; exact if_neg h

/-- The literal one. -/
theorem one_f32 : Ideal.ofBits .f32 0x3F800000#32 = 1 := by
  simp [Ideal.ofBits, Ideal.ieee, -EReal.coe_mul]; norm_num

/-- A bit widened to a word and read as a signed integer is 1 or 0. -/
theorem toInt_setWidth_bit (h : BitVec 1) : ((h.setWidth 32).toInt : ℝ) = if h = 1#1 then 1 else 0 := by
  rcases BitVec.eq_zero_or_eq_one h with rfl | rfl
  · rw [if_neg (by decide)]; norm_num [show ((0#1 : BitVec 1).setWidth 32).toInt = 0 from by decide]
  · rw [if_pos rfl]; norm_num [show ((1#1 : BitVec 1).setWidth 32).toInt = 1 from by decide]

/-- The blend law: `tok · h + t · (1 − h)` is `tok` where the bit is set and `t` where it is clear. -/
theorem blend (h : BitVec 1) (tok t : EReal) :
    tok * (((h.setWidth 32).toInt : ℝ) : EReal) + t * (1 - (((h.setWidth 32).toInt : ℝ) : EReal)) = if h = 1#1 then tok else t := by
  rw [toInt_setWidth_bit]
  by_cases hh : h = 1#1
  · rw [if_pos hh, if_pos hh, EReal.coe_one, mul_one]
    have : (1 : EReal) - 1 = 0 := by rw [← EReal.coe_one, ← EReal.coe_sub, sub_self, EReal.coe_zero]
    rw [this, mul_zero, add_zero]
  · rw [if_neg hh, if_neg hh, EReal.coe_zero, mul_zero, sub_zero, mul_one, zero_add]

end Cert.Embed

end
-- ==== Proof.HitMask.lean ====
/-
  The kernel's hit mask, read at one entry.

  The body compares the lane index `f` (an iota along the feature axis) with each of the eight columns of the row's
  mask positions, broadcast along the features, and ORs the eight compare bits. At entry `(r, f)` of the block the
  OR is set exactly when some column `k` of row `r` holds the word `f`.
-/
import proofs.«407116_j48593259987344_3_alg».proof.Proof.Gen.KernelIdeal.Skeleton
import Idealize.ShloMosaic.Lib.Pipeline.Value
import Idealize.ShloMosaic.Lib.ValueIdx
import Idealize.ShloMosaic.Lib.StableHlo.Predicate

noncomputable section

namespace Cert.Embed.Hit

open Idealize.ShloMosaic Idealize.ShloMosaic.ValueIdx
open Cert.KernelIdeal Cert.KernelIdeal.Gen

variable {F : FTy → Type} [FloatOps F]

/-- One compare: the lane index against column `o` of the positions block, at entry `(r, f)`. -/
theorem column (P : IVec S128x8 32) (o : Nat) (ho : o < 8) (hi : S128x64.Iotas .tc 32 [1]) (hs : S128x8.Slices ![0, o] S128x1)
    (hb : S128x1.Broadcasts S128x64) (r : Fin 128) (f : Fin 64) :
    cmpi .eq (iota .tc S128x64 32 [1] hi) (broadcastTo S128x64 (extractStridedSlice S128x1 ![0, o] P hs) hb) (ix2 r f)
      = IntOp.cmpi .eq (BitVec.ofNat 32 f.val) (P (ix2 r ⟨o, ho⟩)) := by
  show IntOp.cmpi .eq (iota .tc S128x64 32 [1] hi (ix2 r f))
      (broadcastTo S128x64 (extractStridedSlice S128x1 ![0, o] P hs) hb (ix2 r f)) = _
  rw [iota_single_apply,
    broadcastTo_apply _ hb (ix2 r f) (ix2 r (0 : Fin 1)) (fun a => match a with
      | ⟨0, _⟩ => by show r.val = if (128 : Nat) = 1 then 0 else r.val; rw [if_neg (by decide)]
      | ⟨1, _⟩ => by show 0 = if (1 : Nat) = 1 then 0 else f.val; rw [if_pos rfl]),
    extractStridedSlice_apply _ P hs (ix2 r (0 : Fin 1)) (ix2 r ⟨o, ho⟩) (fun a => match a with
      | ⟨0, _⟩ => by show r.val = 0 + r.val; omega
      | ⟨1, _⟩ => by show o = o + 0; omega)]

/-- An OR of two bits is set iff one of them is. -/
theorem ori_eq_one (a b : BitVec 1) : IntOp.ori a b = 1#1 ↔ a = 1#1 ∨ b = 1#1 := by
  rcases BitVec.eq_zero_or_eq_one a with rfl | rfl <;> rcases BitVec.eq_zero_or_eq_one b with rfl | rfl <;> decide

/-- The body's hit bit at entry `(r, f)`: set iff some column of row `r` of the positions block is the word `f`. -/
theorem hit_iff (P : Vec F S128x8 .i32) (r : Fin 128) (f : Fin 64) :
    IntOp.ori (k0_pay4 (F := F) P (ix2 r f)) (k0_pay5 (F := F) P (ix2 r f)) = 1#1
      ↔ ∃ k : Fin 8, P (ix2 r k) = BitVec.ofNat 32 f.val := by
  unfold k0_pay4 k0_pay5
  dsimp only
  show IntOp.ori (IntOp.ori (IntOp.ori (IntOp.ori (IntOp.ori (IntOp.ori (IntOp.ori (IntOp.ori (0#1)
      (cmpi .eq _ _ (ix2 r f))) (cmpi .eq _ _ (ix2 r f))) (cmpi .eq _ _ (ix2 r f))) (cmpi .eq _ _ (ix2 r f)))
      (cmpi .eq _ _ (ix2 r f))) (cmpi .eq _ _ (ix2 r f))) (cmpi .eq _ _ (ix2 r f))) (cmpi .eq _ _ (ix2 r f)) = 1#1 ↔ _
  rw [column P 0 (by decide) _ _ _ r f, column P 1 (by decide) _ _ _ r f, column P 2 (by decide) _ _ _ r f,
    column P 3 (by decide) _ _ _ r f, column P 4 (by decide) _ _ _ r f, column P 5 (by decide) _ _ _ r f,
    column P 6 (by decide) _ _ _ r f, column P 7 (by decide) _ _ _ r f]
  simp only [ori_eq_one, StableHlo.Predicate.cmpi_eq_iff]
  constructor
  · rintro ((((((((h | h) | h) | h) | h) | h) | h) | h) | h)
    · exact absurd h (by decide)
    · exact ⟨⟨0, by decide⟩, h.symm⟩
    · exact ⟨⟨1, by decide⟩, h.symm⟩
    · exact ⟨⟨2, by decide⟩, h.symm⟩
    · exact ⟨⟨3, by decide⟩, h.symm⟩
    · exact ⟨⟨4, by decide⟩, h.symm⟩
    · exact ⟨⟨5, by decide⟩, h.symm⟩
    · exact ⟨⟨6, by decide⟩, h.symm⟩
    · exact ⟨⟨7, by decide⟩, h.symm⟩
  · rintro ⟨k, hk⟩
    match k, hk with
    | ⟨0, _⟩, hk => exact Or.inl (Or.inl (Or.inl (Or.inl (Or.inl (Or.inl (Or.inl (Or.inr hk.symm)))))))
    | ⟨1, _⟩, hk => exact Or.inl (Or.inl (Or.inl (Or.inl (Or.inl (Or.inl (Or.inr hk.symm))))))
    | ⟨2, _⟩, hk => exact Or.inl (Or.inl (Or.inl (Or.inl (Or.inl (Or.inr hk.symm)))))
    | ⟨3, _⟩, hk => exact Or.inl (Or.inl (Or.inl (Or.inl (Or.inr hk.symm))))
    | ⟨4, _⟩, hk => exact Or.inl (Or.inl (Or.inl (Or.inr hk.symm)))
    | ⟨5, _⟩, hk => exact Or.inl (Or.inl (Or.inr hk.symm))
    | ⟨6, _⟩, hk => exact Or.inl (Or.inr hk.symm)
    | ⟨7, _⟩, hk => exact Or.inr hk.symm

end Cert.Embed.Hit

end
-- ==== Proof.KernelBlock.lean ====
/-
  What one grid point leaves in its output block, entry by entry.

  The block is `tok · h + (x · W + b) · (1 − h)` with `h` the hit bit as 0/1: by the blend law the mask token where
  the row's positions block lists the feature, the affine token elsewhere.
-/
import proofs.«407116_j48593259987344_3_alg».proof.Proof.KernelIdealValue
import proofs.«407116_j48593259987344_3_alg».proof.Proof.EmbedSpec
import proofs.«407116_j48593259987344_3_alg».proof.Proof.HitMask

noncomputable section

namespace Cert.Embed.Kernel

open Idealize.ShloMosaic Idealize.ShloMosaic.ValueIdx
open Cert.KernelIdeal Cert.KernelIdeal.Gen Cert.KernelIdeal.Value

/-- Entry `(r, f, d)` of the block a point leaves, over the point's loaded blocks: the mask-token block `T`, the
    positions block `P`, and the blocks `X`, `Wb`, `Bb` of x, W and b. -/
theorem block_entry (T : Vec Ideal S1x256 .f32) (P : Vec Ideal S128x8 .i32) (X : Vec Ideal S128x64 .f32)
    (Wb Bb : Vec Ideal S64x256 .f32) (r : Fin 128) (f : Fin 64) (d : Fin 256) :
    E5 (F := Ideal) T P X Wb Bb (ix3 r f d)
      = if (∃ k : Fin 8, P (ix2 r k) = BitVec.ofNat 32 f.val) then T (ix2 (0 : Fin 1) d)
        else X (ix2 r f) * Wb (ix2 f d) + Bb (ix2 f d) := by
  have i0 : ix5_0 (ix3 r f d) = ix2 (0 : Fin 1) d := funext fun a => match a with | ⟨0, _⟩ => rfl | ⟨1, _⟩ => rfl
  have i1 : ix5_1 (ix3 r f d) = ix2 r f := funext fun a => match a with | ⟨0, _⟩ => rfl | ⟨1, _⟩ => rfl
  have i2 : ix5_2 (ix3 r f d) = ix2 r f := funext fun a => match a with | ⟨0, _⟩ => rfl | ⟨1, _⟩ => rfl
  have i3 : ix5_3 (ix3 r f d) = ix2 r f := funext fun a => match a with | ⟨0, _⟩ => rfl | ⟨1, _⟩ => rfl
  have i4 : ix5_4 (ix3 r f d) = ix2 f d := funext fun a => match a with | ⟨0, _⟩ => rfl | ⟨1, _⟩ => rfl
  have i5 : ix5_5 (ix3 r f d) = ix2 f d := funext fun a => match a with | ⟨0, _⟩ => rfl | ⟨1, _⟩ => rfl
  have i6 : ix5_6 (ix3 r f d) = ix2 r f := funext fun a => match a with | ⟨0, _⟩ => rfl | ⟨1, _⟩ => rfl
  have i7 : ix5_7 (ix3 r f d) = ix2 r f := funext fun a => match a with | ⟨0, _⟩ => rfl | ⟨1, _⟩ => rfl
  show T (ix5_0 (ix3 r f d))
        * ((((IntOp.ori (k0_pay4 (F := Ideal) P (ix5_1 (ix3 r f d))) (k0_pay5 (F := Ideal) P (ix5_2 (ix3 r f d)))).setWidth 32).toInt : ℝ) : EReal)
      + (X (ix5_3 (ix3 r f d)) * Wb (ix5_4 (ix3 r f d)) + Bb (ix5_5 (ix3 r f d)))
        * (Ideal.ofBits .f32 0x3F800000#32
            - ((((IntOp.ori (k0_pay4 (F := Ideal) P (ix5_6 (ix3 r f d))) (k0_pay5 (F := Ideal) P (ix5_7 (ix3 r f d)))).setWidth 32).toInt : ℝ) : EReal))
      = _
  rw [i0, i1, i2, i3, i4, i5, i6, i7, Cert.Embed.one_f32, Cert.Embed.blend]
  exact if_congr (Cert.Embed.Hit.hit_iff (F := Ideal) P r f) rfl rfl

end Cert.Embed.Kernel

end
-- ==== Proof.KernelArray.lean ====
/-
  From blocks to the array: the kernel's result is `embed` of the argument arrays.

  The grid has 16 × 2 points; point `(p, q)` owns rows `128·p … 128·p + 127` and model coordinates `256·q … 256·q + 255`
  of the result, all 64 features. Its input blocks move with it: rows `128·p …` of x and of the positions, columns
  `256·q …` of W, b and the (reshaped) mask token. So entry `(r, f, d)` of what the point writes back is `embed` at
  `(128·p + r, f, 256·q + d)`, and since the 32 blocks tile the result the whole array is `embed`.
-/
import proofs.«407116_j48593259987344_3_alg».proof.Proof.KernelBlock
import Idealize.ShloMosaic.Lib.Pipeline.Value
import Idealize.ShloMosaic.Lib.StableHlo.Run

set_option maxRecDepth 16384

noncomputable section

namespace Cert.Embed.Kernel

open Idealize.ShloMosaic Idealize.ShloMosaic.ValueIdx Idealize.ShloMosaic.TcCoe Idealize.SL.Sem
open Cert.KernelIdeal Cert.KernelIdeal.Gen Cert.KernelIdeal.Value
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl

/-- The printed index maps over the 32 points: the row blocks of x and of the positions, and the column blocks of W, b
    and the mask token, are the result block's; the result's feature block is always 0. -/
theorem idx_facts : ∀ t : Fin cfg0.N,
    win0_0.index t (0 : Fin 2) = win0_5.index t (0 : Fin 3) ∧ win0_0.index t (1 : Fin 2) = 0
    ∧ win0_1.index t (0 : Fin 2) = 0 ∧ win0_1.index t (1 : Fin 2) = win0_5.index t (2 : Fin 3)
    ∧ win0_2.index t (0 : Fin 2) = 0 ∧ win0_2.index t (1 : Fin 2) = win0_5.index t (2 : Fin 3)
    ∧ win0_3.index t (0 : Fin 2) = win0_5.index t (0 : Fin 3) ∧ win0_3.index t (1 : Fin 2) = 0
    ∧ win0_4.index t (0 : Fin 2) = 0 ∧ win0_4.index t (1 : Fin 2) = win0_5.index t (2 : Fin 3)
    ∧ win0_5.index t (1 : Fin 3) = 0 ∧ win0_5.index t (0 : Fin 3) ≤ 15 ∧ win0_5.index t (2 : Fin 3) ≤ 1 :=
  (by decide +kernel : ∀ t : Fin grid0.N, _)

/-- Every (row block, column block) pair is some point's. -/
theorem idx_onto : ∀ (q0 : Fin 16) (q2 : Fin 2), ∃ t : Fin cfg0.N, win0_5.index t = ![q0.val, 0, q2.val] :=
  (by decide +kernel : ∀ (q0 : Fin 16) (q2 : Fin 2), ∃ t : Fin grid0.N, win0_5.index t = ![q0.val, 0, q2.val])

/-- The mask token as the region finds it: the argument viewed [1, 512]. -/
theorem tok_arr (c : Dev nD) :
    (V m c main_v0 : S1x512.Idx → EReal) = shapeCast S1x512 (m ((c : Thread nD τ).loc main_arg4)) shapeCasts_S512_S1x512 := by
  dsimp only [V, hostOps0]; after_results; rfl

theorem tok_arr_apply (c : Dev nD) (d : Fin 512) :
    (V m c main_v0 : S1x512.Idx → EReal) (ix2 (0 : Fin 1) d) = m ((c : Thread nD τ).loc main_arg4) (ix1 d) := by
  rw [tok_arr]
  exact shapeCast_apply _ _ (ix2 (0 : Fin 1) d) (ix1 d) (by
    rw [Shape.rowMajor_val_one, Shape.rowMajor_val_two]; show d.val = 0 * 512 + d.val; omega)

/-- The point's input blocks at their literal types. -/
abbrev xblk (c : Dev nD) (t : Fin cfg0.N) : Vec Ideal S128x64 .f32 := iblk m c 0 t
abbrev wblk (c : Dev nD) (t : Fin cfg0.N) : Vec Ideal S64x256 .f32 := iblk m c 1 t
abbrev bblk (c : Dev nD) (t : Fin cfg0.N) : Vec Ideal S64x256 .f32 := iblk m c 2 t
abbrev pblk (c : Dev nD) (t : Fin cfg0.N) : Vec Ideal S128x8 .i32 := iblk m c 3 t
abbrev tblk (c : Dev nD) (t : Fin cfg0.N) : Vec Ideal S1x256 .f32 := iblk m c 4 t

/-- WHAT POINT `t` WRITES BACK is block `t` of `embed` of the arrays as the region finds them. -/
theorem flushed_eq (c : Dev nD) (t : Fin cfg0.N) :
    (dats m 0 c).flushed 5 t = ((cfg0.win 5).blk t).view.read (Elt Ideal)
      (embed (V m c main_arg0) (V m c main_arg1) (V m c main_arg2) (V m c main_arg3) (m ((c : Thread nD τ).loc main_arg4))) := by
  rw [flushed5]
  unfold out0_5
  simp only [View.ld_unit_zero (S := S128x64) hz2, View.ld_unit_zero (S := S64x256) hz2, View.ld_unit_zero (S := S128x8) hz2,
    View.ld_unit_zero (S := S1x256) hz2]
  obtain ⟨e00, e01, e10, e11, e20, e21, e30, e31, e40, e41, e51, b0, b2⟩ := idx_facts t
  funext y
  obtain ⟨r, f, d, rfl⟩ : ∃ (r : Fin 128) (f : Fin 64) (d : Fin 256), y = ix3 r f d := ⟨y 0, y 1, y 2, eq_ix3 y⟩
  -- the array coordinates of entry (r, f, d) of the point's block
  have hR : win0_5.index t (0 : Fin 3) * 128 + r.val < 2048 := by have := r.isLt; omega
  have hD : win0_5.index t (2 : Fin 3) * 256 + d.val < 512 := by have := d.isLt; omega
  have hemb : ((cfg0.win 5).blk t).view.emb (ix3 r f d)
      = ix3 (⟨win0_5.index t (0 : Fin 3) * 128 + r.val, hR⟩ : Fin 2048) f (⟨win0_5.index t (2 : Fin 3) * 256 + d.val, hD⟩ : Fin 512) := by
    funext a; apply Fin.ext
    match a with
    | ⟨0, _⟩ => show win0_5.index t (0 : Fin 3) * 128 + 1 * r.val = win0_5.index t (0 : Fin 3) * 128 + r.val; omega
    | ⟨1, _⟩ => show win0_5.index t (1 : Fin 3) * 64 + 1 * f.val = f.val; omega
    | ⟨2, _⟩ => show win0_5.index t (2 : Fin 3) * 256 + 1 * d.val = win0_5.index t (2 : Fin 3) * 256 + d.val; omega
  -- each input block read where the result block's rectangle says
  have hX : xblk m c t (ix2 r f) = V m c main_arg0 (ix2 (⟨win0_5.index t (0 : Fin 3) * 128 + r.val, hR⟩ : Fin 2048) f) := by
    show V m c main_arg0 (((cfg0.win 0).blk t).view.emb (ix2 r f)) = _
    refine congrArg _ (funext fun a => Fin.ext ?_)
    match a with
    | ⟨0, _⟩ => show win0_0.index t (0 : Fin 2) * 128 + 1 * r.val = win0_5.index t (0 : Fin 3) * 128 + r.val; omega
    | ⟨1, _⟩ => show win0_0.index t (1 : Fin 2) * 64 + 1 * f.val = f.val; omega
  have hW : wblk m c t (ix2 f d) = V m c main_arg2 (ix2 f (⟨win0_5.index t (2 : Fin 3) * 256 + d.val, hD⟩ : Fin 512)) := by
    show V m c main_arg2 (((cfg0.win 1).blk t).view.emb (ix2 f d)) = _
    refine congrArg _ (funext fun a => Fin.ext ?_)
    match a with
    | ⟨0, _⟩ => show win0_1.index t (0 : Fin 2) * 64 + 1 * f.val = f.val; omega
    | ⟨1, _⟩ => show win0_1.index t (1 : Fin 2) * 256 + 1 * d.val = win0_5.index t (2 : Fin 3) * 256 + d.val; omega
  have hB : bblk m c t (ix2 f d) = V m c main_arg3 (ix2 f (⟨win0_5.index t (2 : Fin 3) * 256 + d.val, hD⟩ : Fin 512)) := by
    show V m c main_arg3 (((cfg0.win 2).blk t).view.emb (ix2 f d)) = _
    refine congrArg _ (funext fun a => Fin.ext ?_)
    match a with
    | ⟨0, _⟩ => show win0_2.index t (0 : Fin 2) * 64 + 1 * f.val = f.val; omega
    | ⟨1, _⟩ => show win0_2.index t (1 : Fin 2) * 256 + 1 * d.val = win0_5.index t (2 : Fin 3) * 256 + d.val; omega
  have hP : ∀ k : Fin 8, pblk m c t (ix2 r k) = V m c main_arg1 (ix2 (⟨win0_5.index t (0 : Fin 3) * 128 + r.val, hR⟩ : Fin 2048) k) := by
    intro k
    show V m c main_arg1 (((cfg0.win 3).blk t).view.emb (ix2 r k)) = _
    refine congrArg _ (funext fun a => Fin.ext ?_)
    match a with
    | ⟨0, _⟩ => show win0_3.index t (0 : Fin 2) * 128 + 1 * r.val = win0_5.index t (0 : Fin 3) * 128 + r.val; omega
    | ⟨1, _⟩ => show win0_3.index t (1 : Fin 2) * 8 + 1 * k.val = k.val; omega
  have hT : tblk m c t (ix2 (0 : Fin 1) d)
      = m ((c : Thread nD τ).loc main_arg4) (ix1 (⟨win0_5.index t (2 : Fin 3) * 256 + d.val, hD⟩ : Fin 512)) := by
    refine Eq.trans ?_ (tok_arr_apply m c (⟨win0_5.index t (2 : Fin 3) * 256 + d.val, hD⟩ : Fin 512))
    show V m c main_v0 (((cfg0.win 4).blk t).view.emb (ix2 (0 : Fin 1) d)) = _
    refine congrArg _ (funext fun a => Fin.ext ?_)
    match a with
    | ⟨0, _⟩ => show win0_4.index t (0 : Fin 2) * 1 + 1 * 0 = 0; omega
    | ⟨1, _⟩ => show win0_4.index t (1 : Fin 2) * 256 + 1 * d.val = win0_5.index t (2 : Fin 3) * 256 + d.val; omega
  show _ = embed (V m c main_arg0) (V m c main_arg1) (V m c main_arg2) (V m c main_arg3)
    (m ((c : Thread nD τ).loc main_arg4)) (((cfg0.win 5).blk t).view.emb (ix3 r f d))
  refine ((canon5_eq (F := Ideal) (tblk m c t) (pblk m c t) (xblk m c t) (wblk m c t) (bblk m c t) (ix3 r f d)).trans
    (block_entry (tblk m c t) (pblk m c t) (xblk m c t) (wblk m c t) (bblk m c t) r f d)).trans ?_
  rw [hemb, hX, hW, hB, hT]
  by_cases hL : Listed (V m c main_arg1) (⟨win0_5.index t (0 : Fin 3) * 128 + r.val, hR⟩ : Fin 2048) f
  · have hE : ∃ k : Fin 8, pblk m c t (ix2 r k) = BitVec.ofNat 32 f.val := by
      obtain ⟨k, hk⟩ := hL
      exact ⟨k, (hP k).trans hk⟩
    rw [if_pos hE]
    exact (embed_of_listed _ _ _ _ _ _ _ _ hL).symm
  · have hE : ¬ ∃ k : Fin 8, pblk m c t (ix2 r k) = BitVec.ofNat 32 f.val :=
      fun ⟨k, hk⟩ => hL ⟨k, (hP k).symm.trans hk⟩
    rw [if_neg hE]
    exact (embed_of_not_listed _ _ _ _ _ _ _ _ hL).symm

/-- An index of the result is in point `t`'s block iff each coordinate is in the block's range on its axis. -/
theorem mem_blk (t : Fin cfg0.N) (i : S2048x64x512.Idx) :
    i ∈ ((cfg0.win 5).blk t).view.set ↔ ∀ a : Fin 3, win0_5.index t a * S128x64x256.size a ≤ (i a).val
      ∧ (i a).val < win0_5.index t a * S128x64x256.size a + S128x64x256.size a := by
  show i ∈ ((View.whole main_v1).slice (win0_5.rect t)).set ↔ _
  rw [View.set_slice_whole, Rect.mem_set_unit]
  exact Iff.rfl

/-- The 32 blocks cover the result: index `(R, f, D)` is in the block of the point with row block `R / 128` and column
    block `D / 256`. -/
theorem cover (i : S2048x64x512.Idx) : ∃ t : Fin cfg0.N, (cfg0.win 5).flush t = true ∧ i ∈ ((cfg0.win 5).blk t).view.set := by
  have hi0 : (i 0).val < 2048 := (i 0).isLt
  have hi1 : (i 1).val < 64 := (i 1).isLt
  have hi2 : (i 2).val < 512 := (i 2).isLt
  obtain ⟨t, ht⟩ := idx_onto ⟨(i 0).val / 128, by omega⟩ ⟨(i 2).val / 256, by omega⟩
  have q0 : win0_5.index t (0 : Fin 3) = (i 0).val / 128 := congrFun ht 0
  have q1 : win0_5.index t (1 : Fin 3) = 0 := congrFun ht 1
  have q2 : win0_5.index t (2 : Fin 3) = (i 2).val / 256 := congrFun ht 2
  refine ⟨t, flush0_5 t, ?_⟩
  rw [mem_blk]
  intro a
  match a with
  | ⟨0, _⟩ =>
    show win0_5.index t (0 : Fin 3) * 128 ≤ (i 0).val ∧ (i 0).val < win0_5.index t (0 : Fin 3) * 128 + 128; omega
  | ⟨1, _⟩ =>
    show win0_5.index t (1 : Fin 3) * 64 ≤ (i 1).val ∧ (i 1).val < win0_5.index t (1 : Fin 3) * 64 + 64; omega
  | ⟨2, _⟩ =>
    show win0_5.index t (2 : Fin 3) * 256 ≤ (i 2).val ∧ (i 2).val < win0_5.index t (2 : Fin 3) * 256 + 256; omega

/-- THE ARRAY after the run is `embed` of the arguments. -/
theorem final (c : Dev nD) : (dats m 0 c).arrAt 5 cfg0.N
    = embed (m ((c : Thread nD τ).loc main_arg0)) (m ((c : Thread nD τ).loc main_arg1)) (m ((c : Thread nD τ).loc main_arg2))
        (m ((c : Thread nD τ).loc main_arg3)) (m ((c : Thread nD τ).loc main_arg4)) := by
  have h := (dats m 0 c).arrAt_eq_of_cover 5 (embed (V m c main_arg0) (V m c main_arg1) (V m c main_arg2) (V m c main_arg3)
    (m ((c : Thread nD τ).loc main_arg4))) (fun t _ => flushed_eq m c t) cover
  rw [V_main_arg0, V_main_arg1, V_main_arg2, V_main_arg3] at h
  exact h

/-- The kernel's run: the result array ends at `embed` of the arguments, the arguments unchanged. -/
theorem run : θ_run defs (onTc (τ := τ) (main (F := Ideal))) ⟨m, fun _ => 0, ρ⟩ fun r => ∀ c : Dev nD,
      r.2.mem ((c : Thread nD τ).loc main_v1)
        = embed (m ((c : Thread nD τ).loc main_arg0)) (m ((c : Thread nD τ).loc main_arg1)) (m ((c : Thread nD τ).loc main_arg2))
            (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (run_blocks m ρ)

end Cert.Embed.Kernel

end
-- ==== Proof.LibScatterSet.lean ====
/-
  A scatter whose body returns the update (an indexed assignment, `x.at[i].set(v)`) read at ONE index of its result.

  The scatter is a left fold over the update indices, each step overwriting the element its update lands on and
  leaving every other element alone. Read at a fixed index `i`, such a fold only sees the updates that land on `i`:
  if none does, the element is the operand's; if some do and all of them carry one value `c`, the element is `c`,
  whichever of them the fold meets last. Nothing is asked of the order of the updates, of their number, or of the
  updates that land elsewhere or outside the operand (those are dropped by the fold itself).
-/
import Idealize.ShloMosaic.PureOps.ShapeOps
import Idealize.ShloMosaic.PureOps.Dims

namespace Idealize.ShloMosaic.ScatterSet

open Idealize.ShloMosaic

section Fold

variable {α ι κ : Type}

/-- A fold of steps that leave index `i` alone (every step either does nothing or overwrites an index other than
    `i`) does not change the element at `i`. -/
theorem foldl_untouched (step : (ι → α) → κ → (ι → α)) (i : ι) :
    ∀ (l : List κ) (r : ι → α), (∀ n ∈ l, ∀ r' : ι → α, step r' n i = r' i) → l.foldl step r i = r i
  | [], _, _ => rfl
  | n :: l, r, h => by
    rw [List.foldl_cons, foldl_untouched step i l (step r n) (fun n' hn' => h n' (List.mem_cons_of_mem _ hn'))]
    exact h n List.mem_cons_self r

/-- A fold in which every step either leaves index `i` alone or sets it to `c`, and at least one step sets it, ends
    with `c` at `i`: after the last step that sets it nothing touches it. -/
theorem foldl_set (step : (ι → α) → κ → (ι → α)) (i : ι) (c : α) (hits : κ → Prop) :
    ∀ (l : List κ) (r : ι → α), (∀ n ∈ l, hits n → ∀ r' : ι → α, step r' n i = c) →
      (∀ n ∈ l, ¬ hits n → ∀ r' : ι → α, step r' n i = r' i) → (∃ n ∈ l, hits n) → l.foldl step r i = c
  | [], _, _, _, hex => by obtain ⟨n, hn, _⟩ := hex; cases hn
  | n :: l, r, hset, hkeep, hex => by
    rw [List.foldl_cons]
    by_cases hl : ∃ n' ∈ l, hits n'
    · exact foldl_set step i c hits l (step r n) (fun n' hn' => hset n' (List.mem_cons_of_mem _ hn'))
        (fun n' hn' => hkeep n' (List.mem_cons_of_mem _ hn')) hl
    · have hn : hits n := by
        obtain ⟨n', hn', hh⟩ := hex
        rcases List.mem_cons.1 hn' with rfl | hn'
        · exact hh
        · exact absurd ⟨n', hn', hh⟩ hl
      rw [foldl_untouched step i l (step r n) (fun n' hn' r' =>
        hkeep n' (List.mem_cons_of_mem _ hn') (fun hh => hl ⟨n', hn', hh⟩) r')]
      exact hset n List.mem_cons_self hn r

end Fold

variable {α : Type} {s si u : Shape} {w : Nat}

/-- An assigning scatter read at an index `i` on which no update lands: the operand's element. -/
theorem scatter_set_of_no_hit (d : ScatterDims s si u) (x : s.Idx → α) (idx : IVec si w) (upd : u.Idx → α) (i : s.Idx)
    (h : ∀ j : u.Idx, d.resultIdx? j idx ≠ some i) :
    Host.scatter d (fun _ b => b) x idx upd i = x i := by
  unfold Host.scatter
  refine foldl_untouched _ i _ x (fun n _ r' => ?_)
  have hn := h (u.rowMajor.symm n)
  generalize d.resultIdx? (u.rowMajor.symm n) idx = o at hn
  cases o with
  | none => rfl
  | some i₀ =>
    have hne : i ≠ i₀ := fun e => hn (e ▸ rfl)
    show (if i = i₀ then upd (u.rowMajor.symm n) else r' i) = r' i
    exact if_neg hne

/-- An assigning scatter read at an index `i` on which some update lands, every update that lands there carrying
    the value `c`: the element is `c`. -/
theorem scatter_set_of_hit (d : ScatterDims s si u) (x : s.Idx → α) (idx : IVec si w) (upd : u.Idx → α) (i : s.Idx) (c : α)
    (hv : ∀ j : u.Idx, d.resultIdx? j idx = some i → upd j = c) (hex : ∃ j : u.Idx, d.resultIdx? j idx = some i) :
    Host.scatter d (fun _ b => b) x idx upd i = c := by
  unfold Host.scatter
  refine foldl_set _ i c (fun n => d.resultIdx? (u.rowMajor.symm n) idx = some i) _ x
    (fun n _ hn r' => ?_) (fun n _ hn r' => ?_) ?_
  · have hc := hv _ hn
    rw [hn]
    show (if i = i then upd (u.rowMajor.symm n) else r' i) = c
    rw [if_pos rfl]
    exact hc
  · generalize d.resultIdx? (u.rowMajor.symm n) idx = o at hn
    cases o with
    | none => rfl
    | some i₀ =>
      have hne : i ≠ i₀ := fun e => hn (e ▸ rfl)
      show (if i = i₀ then upd (u.rowMajor.symm n) else r' i) = r' i
      exact if_neg hne
  · obtain ⟨j, hj⟩ := hex
    exact ⟨u.rowMajor j, List.mem_finRange _, by rw [Equiv.symm_apply_apply]; exact hj⟩

end Idealize.ShloMosaic.ScatterSet
-- ==== Proof.RefIsEmbed.lean ====
/-
  The reference computes `embed` wherever the mask positions are non-negative.

  The reference forms the affine tokens and then assigns the mask token by a scatter whose index pairs are
  (row, wrapped position): the row column is an iota, the position column is `p + 64` where `p < 0` and `p` otherwise.
  An update `(r', k, d')` lands on element `(r, f, d)` exactly when its row index is `r`, its wrapped position is `f`
  and `d' = d`; a pair that falls outside the array is dropped. For non-negative positions the wrap is the identity,
  so element `(r, f, d)` is hit iff row `r` lists `f`, every update that hits it carries `tok[d]`, and an element
  that is not hit keeps the affine token.
-/
import proofs.«407116_j48593259987344_3_alg».proof.Proof.Gen.ReferenceIdeal.Read
import proofs.«407116_j48593259987344_3_alg».proof.Proof.LibScatterSet
import proofs.«407116_j48593259987344_3_alg».proof.Proof.EmbedSpec
import Idealize.ShloMosaic.Lib.Pipeline.Value
import Idealize.ShloMosaic.Lib.ValueIdx
import Idealize.ShloMosaic.Lib.StableHlo.Predicate

noncomputable section

namespace Cert.Embed.Ref

open Idealize.ShloMosaic Idealize.ShloMosaic.ValueIdx
open Cert.ReferenceIdeal Cert.ReferenceIdeal.Gen Cert.ReferenceIdeal.Read

/-- The scatter's dimension numbers: operand [2048, 64, 512], index pairs [2048, 8, 2], updates [2048, 8, 512]; the
    pair addresses operand axes 0 and 1, the updates' last axis is the window along operand axis 2. -/
abbrev D := scatter_S2048x64x512_S2048x8x2_S2048x8x512_2_01_01_2

/-! ## Where an update lands -/

theorem window0 (j : S2048x8x512.Idx) : D.window j 0 = 0 := by
  unfold ScatterDims.window; rw [dif_neg (by decide)]
theorem window1 (j : S2048x8x512.Idx) : D.window j 1 = 0 := by
  unfold ScatterDims.window; rw [dif_neg (by decide)]
theorem window2 (r' : Fin 2048) (k : Fin 8) (d' : Fin 512) : D.window (ix3 r' k d') 2 = d'.val := by
  unfold ScatterDims.window; rw [dif_pos (by decide)]; rfl

/-- Update `(r', k, d')` reads component `c` of its index pair at `(r', k, c)`. -/
theorem siIdx_eq (r' : Fin 2048) (k : Fin 8) (d' : Fin 512) (c : Fin D.scatterDimsToOperandDims.length) :
    D.siIdx (ix3 r' k d') c = ix3 r' k (⟨c.val, c.isLt⟩ : Fin 2) := by
  funext b
  match b with
  | ⟨0, _⟩ => rfl
  | ⟨1, _⟩ => rfl
  | ⟨2, _⟩ => rfl

theorem start0 (r' : Fin 2048) (k : Fin 8) (d' : Fin 512) (idx : IVec S2048x8x2 32) :
    D.start (ix3 r' k d') idx 0 = (idx (ix3 r' k (0 : Fin 2))).toInt := by
  unfold ScatterDims.start; rw [dif_pos (by decide), siIdx_eq]; rfl
theorem start1 (r' : Fin 2048) (k : Fin 8) (d' : Fin 512) (idx : IVec S2048x8x2 32) :
    D.start (ix3 r' k d') idx 1 = (idx (ix3 r' k (1 : Fin 2))).toInt := by
  unfold ScatterDims.start; rw [dif_pos (by decide), siIdx_eq]; rfl
theorem start2 (j : S2048x8x512.Idx) (idx : IVec S2048x8x2 32) : D.start j idx 2 = 0 := by
  unfold ScatterDims.start; rw [dif_neg (by decide)]

/-- Update `(r', k, d')` lands on element `(r, f, d)` iff its index pair, read signed, is `(r, f)` and `d' = d`. -/
theorem lands_iff (r' : Fin 2048) (k : Fin 8) (d' : Fin 512) (idx : IVec S2048x8x2 32) (r : Fin 2048) (f : Fin 64) (d : Fin 512) :
    D.resultIdx? (ix3 r' k d') idx = some (ix3 r f d) ↔
      (idx (ix3 r' k (0 : Fin 2))).toInt = (r.val : Int) ∧ (idx (ix3 r' k (1 : Fin 2))).toInt = (f.val : Int) ∧ d'.val = d.val := by
  unfold ScatterDims.resultIdx?
  constructor
  · intro h
    split at h
    · next hb =>
      have e := Option.some.inj h
      have e0 : (D.start (ix3 r' k d') idx 0 + D.window (ix3 r' k d') 0).toNat = r.val :=
        congrArg (fun v : S2048x64x512.Idx => (v 0).val) e
      have e1 : (D.start (ix3 r' k d') idx 1 + D.window (ix3 r' k d') 1).toNat = f.val :=
        congrArg (fun v : S2048x64x512.Idx => (v 1).val) e
      have e2 : (D.start (ix3 r' k d') idx 2 + D.window (ix3 r' k d') 2).toNat = d.val :=
        congrArg (fun v : S2048x64x512.Idx => (v 2).val) e
      have b0 := (hb 0).1; have b1 := (hb 1).1
      rw [start0, window0] at e0 b0
      rw [start1, window1] at e1 b1
      rw [start2, window2] at e2
      refine ⟨?_, ?_, ?_⟩ <;> omega
    · cases h
  · rintro ⟨h0, h1, h2⟩
    have hb : ∀ a, 0 ≤ D.start (ix3 r' k d') idx a + D.window (ix3 r' k d') a
        ∧ D.start (ix3 r' k d') idx a + D.window (ix3 r' k d') a < S2048x64x512.size a := by
      intro a
      match a with
      | ⟨0, _⟩ =>
        show 0 ≤ D.start (ix3 r' k d') idx 0 + D.window (ix3 r' k d') 0
          ∧ D.start (ix3 r' k d') idx 0 + D.window (ix3 r' k d') 0 < ((2048 : Nat) : Int)
        rw [start0, window0, h0]; have := r.isLt; omega
      | ⟨1, _⟩ =>
        show 0 ≤ D.start (ix3 r' k d') idx 1 + D.window (ix3 r' k d') 1
          ∧ D.start (ix3 r' k d') idx 1 + D.window (ix3 r' k d') 1 < ((64 : Nat) : Int)
        rw [start1, window1, h1]; have := f.isLt; omega
      | ⟨2, _⟩ =>
        show 0 ≤ D.start (ix3 r' k d') idx 2 + D.window (ix3 r' k d') 2
          ∧ D.start (ix3 r' k d') idx 2 + D.window (ix3 r' k d') 2 < ((512 : Nat) : Int)
        rw [start2, window2, h2]; have := d.isLt; omega
    rw [dif_pos hb]
    congr 1
    funext a
    apply Fin.ext
    match a with
    | ⟨0, _⟩ =>
      show (D.start (ix3 r' k d') idx 0 + D.window (ix3 r' k d') 0).toNat = r.val; rw [start0, window0, h0]; omega
    | ⟨1, _⟩ =>
      show (D.start (ix3 r' k d') idx 1 + D.window (ix3 r' k d') 1).toNat = f.val; rw [start1, window1, h1]; omega
    | ⟨2, _⟩ =>
      show (D.start (ix3 r' k d') idx 2 + D.window (ix3 r' k d') 2).toNat = d.val; rw [start2, window2, h2]; omega

/-! ## The index pairs -/

theorem toInt_ofNat_small (n : Nat) (hn : n < 2 ^ 31) : (BitVec.ofNat 32 n).toInt = (n : Int) := by
  have h1 : (BitVec.ofNat 32 n).toNat = n := by rw [BitVec.toNat_ofNat]; exact Nat.mod_eq_of_lt (by omega)
  rw [StableHlo.Predicate.toInt_eq_toNat_of_lt (by omega), h1]

/-- A non-negative word is not below zero. -/
theorem slt_zero_of_nonneg (a : BitVec 32) (h : 0 ≤ a.toInt) : IntOp.cmpi .slt a 0#32 = 0#1 := by
  have h0 : (0#32 : BitVec 32).toInt = 0 := by decide
  have hs : a.slt 0#32 = false := by
    simp only [BitVec.slt, h0, decide_eq_false_iff_not, not_lt]; exact h
  unfold IntOp.cmpi
  show BitVec.ofBool (a.slt 0#32) = 0#1
  rw [hs]; rfl

variable {F : FTy → Type} [FloatOps F]

/-- The row column of the index pairs is the row number. -/
theorem row_index (x1 : IVec S2048x8 32) (r : Fin 2048) (k : Fin 8) :
    val_main_v23 (F := F) x1 (ix3 r k (0 : Fin 2)) = BitVec.ofNat 32 r.val := by
  unfold val_main_v23
  rw [concatenate_pair_apply_left (t := S2048x8x2) (s₁ := S2048x8x1) (s₂ := S2048x8x1) (2 : Fin 3) _ _
    concatenates_S2048x8x1_S2048x8x1_S2048x8x2_d2 (ix3 r k (0 : Fin 2)) rfl
    (ix3 r k (0 : Fin 1)) (fun b => match b with | ⟨0, _⟩ => rfl | ⟨1, _⟩ => rfl | ⟨2, _⟩ => rfl)]
  rw [val_main_v21_apply, val_main_v20_apply, val_main_v14_apply, val_main_v11_apply, val_main_v9_apply, val_main_v8_apply,
    val_main_v10_apply, val_main_c_apply]
  show Scalar.select (IntOp.cmpi .slt (BitVec.ofNat 32 r.val) 0#32) _ (BitVec.ofNat 32 r.val) = _
  rw [slt_zero_of_nonneg _ (by rw [toInt_ofNat_small _ (by have := r.isLt; omega)]; omega), select_zero]

/-- The position column of the index pairs is the position itself where that is non-negative. -/
theorem position_index (x1 : IVec S2048x8 32) (r : Fin 2048) (k : Fin 8) (h : 0 ≤ (x1 (ix2 r k)).toInt) :
    val_main_v23 (F := F) x1 (ix3 r k (1 : Fin 2)) = x1 (ix2 r k) := by
  unfold val_main_v23
  rw [concatenate_pair_apply_right (t := S2048x8x2) (s₁ := S2048x8x1) (s₂ := S2048x8x1) (2 : Fin 3) _ _
    concatenates_S2048x8x1_S2048x8x1_S2048x8x2_d2 (ix3 r k (1 : Fin 2)) rfl rfl
    (ix3 r k (0 : Fin 1)) (fun b hb => match b, hb with
      | ⟨0, _⟩, _ => rfl
      | ⟨1, _⟩, _ => rfl
      | ⟨2, _⟩, hb => absurd rfl hb) rfl]
  rw [val_main_v22_apply, val_main_v19_apply, val_main_v16_apply, val_main_v15_apply, val_main_c_1_apply]
  have e : idx_main_v22 (ix3 r k (0 : Fin 1)) = ix2 r k := funext fun a => match a with | ⟨0, _⟩ => rfl | ⟨1, _⟩ => rfl
  rw [e, slt_zero_of_nonneg _ h, select_zero]

/-! ## The reference's result -/

/-- Under non-negative mask positions the reference's last stage is `embed` of the arguments. -/
theorem stage_eq_embed (x0 : FVec Ideal S2048x64 .f32) (x1 : IVec S2048x8 32) (x2 x3 : FVec Ideal S64x512 .f32)
    (x4 : FVec Ideal S512 .f32) (hpos : ∀ (r : Fin 2048) (k : Fin 8), 0 ≤ (x1 (ix2 r k)).toInt) :
    val_main_v25 (F := Ideal) x0 x1 x2 x3 x4 = embed x0 x1 x2 x3 x4 := by
  funext i
  obtain ⟨r, f, d, rfl⟩ : ∃ (r : Fin 2048) (f : Fin 64) (d : Fin 512), i = ix3 r f d := ⟨i 0, i 1, i 2, eq_ix3 i⟩
  unfold val_main_v25
  by_cases h : Listed x1 r f
  · rw [embed_of_listed _ _ _ _ _ r f d h]
    obtain ⟨k, hk⟩ := h
    refine ScatterSet.scatter_set_of_hit D _ _ _ _ _ (fun j hj => ?_) ⟨ix3 r k d, ?_⟩
    · obtain ⟨r', k', d', rfl⟩ : ∃ (r' : Fin 2048) (k' : Fin 8) (d' : Fin 512), j = ix3 r' k' d' := ⟨j 0, j 1, j 2, eq_ix3 j⟩
      rw [lands_iff] at hj
      rw [val_main_v24_apply]
      congr 1
      funext a
      match a with
      | ⟨0, _⟩ => exact Fin.ext hj.2.2
    · rw [lands_iff]
      refine ⟨?_, ?_, rfl⟩
      · rw [row_index, toInt_ofNat_small _ (by have := r.isLt; omega)]
      · rw [position_index _ r k (hpos r k), hk, toInt_ofNat_small _ (by have := f.isLt; omega)]
  · rw [embed_of_not_listed _ _ _ _ _ r f d h]
    rw [ScatterSet.scatter_set_of_no_hit D _ _ _ _ (fun j hj => h ?_)]
    · rw [val_main_v7_apply, val_main_v4_apply, val_main_v2_apply, val_main_v0_apply, val_main_v3_apply, val_main_v1_apply,
        val_main_v6_apply, val_main_v5_apply]
      have e0 : idx_main_v0 (idx_main_v2 (ix3 r f d)) = ix2 r f := funext fun a => match a with | ⟨0, _⟩ => rfl | ⟨1, _⟩ => rfl
      have e1 : idx_main_v1 (idx_main_v3 (ix3 r f d)) = ix2 f d := funext fun a => match a with | ⟨0, _⟩ => rfl | ⟨1, _⟩ => rfl
      have e2 : idx_main_v5 (idx_main_v6 (ix3 r f d)) = ix2 f d := funext fun a => match a with | ⟨0, _⟩ => rfl | ⟨1, _⟩ => rfl
      rw [e0, e1, e2]
      rfl
    · obtain ⟨r', k', d', rfl⟩ : ∃ (r' : Fin 2048) (k' : Fin 8) (d' : Fin 512), j = ix3 r' k' d' := ⟨j 0, j 1, j 2, eq_ix3 j⟩
      rw [lands_iff] at hj
      obtain ⟨h0, h1, -⟩ := hj
      rw [row_index, toInt_ofNat_small _ (by have := r'.isLt; omega)] at h0
      have hr : r' = r := Fin.ext (by omega)
      subst hr
      rw [position_index _ r' k' (hpos _ _)] at h1
      refine ⟨k', ?_⟩
      apply BitVec.eq_of_toInt_eq
      rw [h1, toInt_ofNat_small _ (by have := f.isLt; omega)]

end Cert.Embed.Ref

end
-- ==== Proof.PreDecode.lean ====
/-
  What the precondition says of the mask positions.

  The precondition is a conjunction of five `all`s; its last conjunct is `all (positions ≥ 0)`, a signed compare of every
  position against the word 0. Where the whole predicate is true, every position read as a signed integer is
  non-negative. (The four finiteness conjuncts are not opened: the claim does not use them.)
-/
import proofs.«407116_j48593259987344_3_alg».proof.Pre_finite_inputs
import Idealize.ShloMosaic.Lib.ReduceAll
import Idealize.ShloMosaic.Lib.Affine
import Idealize.ShloMosaic.Lib.ValueIdx
import Idealize.ShloMosaic.Lib.StableHlo.Predicate

noncomputable section

namespace Cert.Embed.Pre

open Idealize.ShloMosaic Idealize.ShloMosaic.ValueIdx
open Cert.Pre_finite_inputs

variable [Cert.Pre_finite_inputs.Facts]

instance : Subsingleton S_.Idx := ⟨fun a b => funext fun d => d.elim0⟩

/-- Under the precondition every mask position is non-negative as a signed integer. -/
theorem positions_nonneg {F : FTy → Type} [FloatOps F] (a0 : FVec F S2048x64 .f32) (a1 : IVec S2048x8 32)
    (a2 a3 : FVec F S64x512 .f32) (a4 : FVec F S512 .f32) (h : fn (F := F) a0 a1 a2 a3 a4 = fun _ => 1#1)
    (r : Fin 2048) (k : Fin 8) : 0 ≤ (a1 (ix2 r k)).toInt := by
  have h0 := congrFun h ix0
  dsimp only [fn, fn_part1] at h0
  have h1 := (IntOp.andi_eq_one.mp h0).2
  have h2 := Host.reduce_andi_all _ _ _ _ ix0 h1 (ix2 r k)
  have h3 : IntOp.cmpi .sge (a1 (ix2 r k)) 0#32 = 1#1 := h2
  unfold IntOp.cmpi at h3
  have h4 : (0#32 : BitVec 32).sle (a1 (ix2 r k)) = true := (StableHlo.Predicate.ofBool_eq_one_iff _).mp h3
  have h00 : (0#32 : BitVec 32).toInt = 0 := by decide
  simp only [BitVec.sle, decide_eq_true_eq, h00] at h4
  exact h4

end Cert.Embed.Pre

end
-- ==== Proof.lean ====
/-
  The feature embedding with masked positions: the kernel against its jnp reference, over the extended reals.

  Both programs compute, for a batch row `r`, a feature `f` and a model coordinate `d`, the affine token
  `x[r,f] · W[f,d] + b[f,d]`, replaced by the mask token `tok[d]` where row `r` lists `f` among its eight mask positions.
  The kernel decides "lists" by comparing the lane index with each position and blends with the 0/1 hit value,
  `tok · h + t · (1 − h)`; the reference assigns the mask token by a scatter at the index pairs (row, position), a
  negative position first moved up by 64. The two agree where the positions are non-negative, which the precondition
  states: there the wrap is the identity, an update lands on `(r, f, d)` iff row `r` lists `f` (a position ≥ 64 lands
  nowhere and matches no lane), every update landing there carries `tok[d]`, and the blend is `tok` or `t` on the
  extended reals with no finiteness needed. The common value is `Cert.Embed.embed` (Proof/EmbedSpec.lean); the kernel
  reaches it block by block (Proof/KernelBlock.lean, Proof/KernelArray.lean), the reference through its scatter read at
  an index (Proof/LibScatterSet.lean, Proof/RefIsEmbed.lean).
-/
import proofs.«407116_j48593259987344_3_alg».proof.Defs
import proofs.«407116_j48593259987344_3_alg».proof.Proof.Gen.Kernel
import proofs.«407116_j48593259987344_3_alg».proof.Proof.Gen.Kernel.Skeleton
import proofs.«407116_j48593259987344_3_alg».proof.Proof.Gen.Kernel.Launch
import proofs.«407116_j48593259987344_3_alg».proof.Proof.Gen.Kernel.Points
import proofs.«407116_j48593259987344_3_alg».proof.Proof.Gen.Kernel.Frame
import proofs.«407116_j48593259987344_3_alg».proof.Proof.Gen.KernelIdeal
import proofs.«407116_j48593259987344_3_alg».proof.Proof.Gen.KernelIdeal.Skeleton
import proofs.«407116_j48593259987344_3_alg».proof.Proof.Gen.KernelIdeal.Launch
import proofs.«407116_j48593259987344_3_alg».proof.Proof.Gen.KernelIdeal.Points
import proofs.«407116_j48593259987344_3_alg».proof.Proof.Gen.KernelIdeal.Frame
import proofs.«407116_j48593259987344_3_alg».proof.Proof.Gen.ReferenceIdeal
import proofs.«407116_j48593259987344_3_alg».proof.Proof.Gen.Pre_finite_inputs
import proofs.«407116_j48593259987344_3_alg».proof.Proof.Gen.ReferenceIdeal.Run
import proofs.«407116_j48593259987344_3_alg».proof.Proof.Gen.ReferenceIdeal.Read
import proofs.«407116_j48593259987344_3_alg».proof.Proof.KernelIdealValue
import proofs.«407116_j48593259987344_3_alg».proof.Proof.KernelArray
import proofs.«407116_j48593259987344_3_alg».proof.Proof.RefIsEmbed
import proofs.«407116_j48593259987344_3_alg».proof.Proof.PreDecode
import Idealize.ShloMosaic.Adequacy
import Idealize.ShloMosaic.Init

noncomputable section

namespace Cert.Proof

open Idealize.ShloMosaic Idealize.SL.Sem

theorem frame_kernel : @Cert.frame_Kernel Cert.Kernel.Gen.facts Cert.Pre_finite_inputs.Gen.facts :=
  fun m ρ _ => Cert.Kernel.Gen.frame m ρ

theorem frame_kernelIdeal : @Cert.frame_KernelIdeal Cert.KernelIdeal.Gen.facts Cert.Pre_finite_inputs.Gen.facts :=
  fun m ρ _ => Cert.KernelIdeal.Gen.frame m ρ

/-- The reference has no kernel: its frame is its run with the result dropped. -/
theorem frame_referenceIdeal : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Value.run (F := Ideal) m ρ)

/-- Both runs end at `embed` of the arguments: the kernel's by its blocks, the reference's by its scatter read at an
    index, under the precondition's non-negative positions (carried from the kernel's memory to the reference's by the
    agreement on the arguments). -/
theorem algebraic : @Cert.algebraic_KernelIdeal_ReferenceIdeal Cert.KernelIdeal.Gen.facts Cert.ReferenceIdeal.Gen.facts
    Cert.Pre_finite_inputs.Gen.facts := by
  intro m ρ m' ρ' hpre hagree
  refine ⟨_, Cert.Embed.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v25_eq, (hagree c).1, (hagree c).2.1, (hagree c).2.2.1, (hagree c).2.2.2.1, (hagree c).2.2.2.2]
  exact Cert.Embed.Ref.stage_eq_embed _ _ _ _ _ (fun r k => Cert.Embed.Pre.positions_nonneg _ _ _ _ _ (hpre c) r k)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
